-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x768 : Shape := ⟨3, ![16, 2048, 768]⟩
abbrev S768x768 : Shape := ⟨2, ![768, 768]⟩
abbrev S768 : Shape := ⟨1, ![768]⟩
abbrev S_ : Shape := ⟨0, ![]⟩

class Facts : Prop where
  bcast_S_S16x2048x768 : S_.BroadcastsInDim S16x2048x768 (![] : Fin 0 → Fin S16x2048x768.rank)
  reducesTo_S16x2048x768_S_d0_1_2 : S16x2048x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768x768 .f32) (main_arg5 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x768 .f32 := Host.absf main_arg4
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S16x2048x768 .f32) (main_arg1 : FVec F S16x2048x768 .f32) (main_arg2 : FVec F S768x768 .f32) (main_arg3 : FVec F S768 .f32) (main_arg4 : FVec F S768x768 .f32) (main_arg5 : FVec F S768 .f32) : IVec S_ 1 :=
  let main_v0 : FVec F S16x2048x768 .f32 := Host.absf main_arg0
  let main_cst : FVec F S_ .f32 := constant S_ .f32 0x7F800000#32
  let main_v1 : FVec F S16x2048x768 .f32 := broadcastInDim S16x2048x768 ![] bcast_S_S16x2048x768 main_cst
  let main_v2 : IVec S16x2048x768 1 := cmpf .olt main_v0 main_v1
  let main_c : IVec S_ 1 := constantI S_ 1 1#1
  let main_v3 : IVec S_ 1 := (fun x v => Host.reduce IntOp.andi x v reducesTo_S16x2048x768_S_d0_1_2 h_S_) main_v2 main_c
  let main_v4 : FVec F S16x2048x768 .f32 := Host.absf main_arg1
  let main_cst_0 : FVec F S_ .f32 := constant S_ .f32 0x7F800000#32
  let main_v5 : FVec F S16x2048x768 .f32 := broadcastInDim S16x2048x768 ![] bcast_S_S16x2048x768 main_cst_0
  let main_v6 : IVec S16x2048x768 1 := cmpf .olt main_v4 main_v5
  let main_c_1 : IVec S_ 1 := constantI S_ 1 1#1
  let main_v7 : IVec S_ 1 := (fun x v => Host.reduce IntOp.andi x v reducesTo_S16x2048x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_v13 main_v16
-- ==== Kernel.lean ====
abbrev S16x2048x768 : Shape := ⟨3, ![16, 2048, 768]⟩
abbrev S768x768 : Shape := ⟨2, ![768, 768]⟩
abbrev S768 : Shape := ⟨1, ![768]⟩
abbrev S1x768 : Shape := ⟨2, ![1, 768]⟩
abbrev S16x1x768 : Shape := ⟨3, ![16, 1, 768]⟩
abbrev S1x2048x768 : Shape := ⟨3, ![1, 2048, 768]⟩
abbrev S1x1x768 : Shape := ⟨3, ![1, 1, 768]⟩
abbrev S2048x768 : Shape := ⟨2, ![2048, 768]⟩
abbrev S64x512x768 : Shape := ⟨3, ![64, 512, 768]⟩
abbrev S1x512x768 : Shape := ⟨3, ![1, 512, 768]⟩
abbrev S512x768 : Shape := ⟨2, ![512, 768]⟩

abbrev nBuf : Space → Nat
  | .hbm => 13
  | .vmem => 14
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S1x768, .f32⟩
  | .hbm, ⟨7, _⟩ => ⟨S1x768, .f32⟩
  | .hbm, ⟨8, _⟩ => ⟨S16x1x768, .f32⟩
  | .hbm, ⟨9, _⟩ => ⟨S64x512x768, .f32⟩
  | .hbm, ⟨10, _⟩ => ⟨S768x768, .bf16⟩
  | .hbm, ⟨11, _⟩ => ⟨S64x512x768, .f32⟩
  | .hbm, ⟨12, _⟩ => ⟨S16x2048x768, .f32⟩
  | .local _ .vmem, ⟨0, _⟩ => ⟨S1x2048x768, .f32⟩
  | .local _ .vmem, ⟨1, _⟩ => ⟨S1x2048x768, .f32⟩
  | .local _ .vmem, ⟨2, _⟩ => ⟨S768x768, .f32⟩
  | .local _ .vmem, ⟨3, _⟩ => ⟨S1x768, .f32⟩
  | .local _ .vmem, ⟨4, _⟩ => ⟨S1x768, .f32⟩
  | .local _ .vmem, ⟨5, _⟩ => ⟨S1x1x768, .f32⟩
  | .local _ .vmem, ⟨6, _⟩ => ⟨S1x1x768, .f32⟩
  | .local _ .vmem, ⟨7, _⟩ => ⟨S1x512x768, .f32⟩
  | .local _ .vmem, ⟨8, _⟩ => ⟨S1x512x768, .f32⟩
  | .local _ .vmem, ⟨9, _⟩ => ⟨S768x768, .bf16⟩
  | .local _ .vmem, ⟨10, _⟩ => ⟨S1x1x768, .f32⟩
  | .local _ .vmem, ⟨11, _⟩ => ⟨S1x1x768, .f32⟩
  | .local _ .vmem, ⟨12, _⟩ => ⟨S1x512x768, .f32⟩
  | .local _ .vmem, ⟨13, _⟩ => ⟨S1x512x768, .f32⟩
  | _, _ => ⟨S16x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S768_S1x768 : S768.ShapeCasts S1x768
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  reduces_S2048x768_S768 : S2048x768.Reduces [0] S768
  inb_S768x768_S768x768_0_0 : ∀ a, (![0, 0] : Fin 2 → Nat) a + S768x768.size a ≤ S768x768.size a
  h_S768x768 : 0 < S768x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S1x1x768_S1x1x768_0_0_0 : ∀ a, (![0, 0, 0] : Fin 3 → Nat) a + S1x1x768.size a ≤ S1x1x768.size a
  h_S1x1x768 : 0 < S1x1x768.numel
  shapeCasts_S1x1x768_S1x768 : S1x1x768.ShapeCasts S1x768
  shapeCasts_S1x768_S1x1x768 : S1x768.ShapeCasts S1x1x768
  shapeCasts_S16x2048x768_S64x512x768 : S16x2048x768.ShapeCasts S64x512x768
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  shapeCasts_S768x768_S768x768 : S768x768.ShapeCasts S768x768
  broadcasts_S1x768_S512x768 : S1x768.Broadcasts S512x768
  shapeCasts_S512x768_S1x512x768 : S512x768.ShapeCasts S1x512x768
  shapeCasts_S64x512x768_S16x2048x768 : S64x512x768.ShapeCasts S16x2048x768
  dot_S1x768_S768x768_S1x768_1_1_0_0_n_n_wf : DotDims.WF S1x768 S768x768 S1x768 [1] [1] [0] [0] [] []
  dot_S512x768_S768x768_S512x768_1_1_0_0_n_n_wf : DotDims.WF S512x768 S768x768 S512x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S16x2048x768.size a
  hwx0_0 : ∀ i : grid0.Coords, EltTy.bits .f32 = 32 ∨ (Rect.block (s := S16x2048x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x768.size a ≤ S16x1x768.size a
  hwx0_4 : ∀ i : grid0.Coords, EltTy.bits .f32 = 32 ∨ (Rect.block (s := S16x1x768) S1x1x768.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S64x512x768.size a
  hwx1_0 : ∀ i : grid1.Coords, EltTy.bits .f32 = 32 ∨ (Rect.block (s := S64x512x768) S1x512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x768.size a ≤ S16x1x768.size a
  hwx1_2 : ∀ i : grid1.Coords, EltTy.bits .f32 = 32 ∨ (Rect.block (s := S16x1x768) S1x1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x768.size a ≤ S64x512x768.size a
  hwx1_3 : ∀ i : grid1.Coords, EltTy.bits .f32 = 32 ∨ (Rect.block (s := S64x512x768) S1x512x768.size (cc1_transform_3 i) (hinb1_3 i)).WholeWords (EltTy.packing .f32)

variable [Facts₀]

def dot_S1x768_S768x768_S1x768_1_1_0_0_n_n : DotDims S1x768 S768x768 S1x768 where
  lhsContracting := [1]
  rhsContracting := [1]
  lhsNonContracting := [0]
  rhsNonContracting := [0]
  lhsBatch := []
  rhsBatch := []
  wf := dot_S1x768_S768x768_S1x768_1_1_0_0_n_n_wf
def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf

abbrev win0_0 : Pipeline.Window sig grid0 :=
  Pipeline.Window.ofSpec (Memref.whole main_arg1) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1x768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x512x768.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x768 : Shape := ⟨3, ![16, 2048, 768]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S16x768 : Shape := ⟨2, ![16, 768]⟩
abbrev S16x1x768 : Shape := ⟨3, ![16, 1, 768]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x768, .f32⟩
  | .hbm, ⟨1, _⟩ => ⟨S16x2048x768, .f32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S16x2048x768, .f32⟩
  | .hbm, ⟨7, _⟩ => ⟨S1x1x768, .f32⟩
  | .hbm, ⟨8, _⟩ => ⟨S16x2048x768, .f32⟩
  | .hbm, ⟨9, _⟩ => ⟨S16x2048x768, .f32⟩
  | .hbm, ⟨10, _⟩ => ⟨S16x2048x768, .f32⟩
  | .hbm, ⟨11, _⟩ => ⟨S1x1x768, .f32⟩
  | .hbm, ⟨12, _⟩ => ⟨S16x2048x768, .f32⟩
  | .hbm, ⟨13, _⟩ => ⟨S16x2048x768, .f32⟩
  | .hbm, ⟨14, _⟩ => ⟨S_, .f32⟩
  | .hbm, ⟨15, _⟩ => ⟨S16x768, .f32⟩
  | .hbm, ⟨16, _⟩ => ⟨S16x1x768, .f32⟩
  | .hbm, ⟨17, _⟩ => ⟨S_, .f32⟩
  | .hbm, ⟨18, _⟩ => ⟨S16x1x768, .f32⟩
  | .hbm, ⟨19, _⟩ => ⟨S16x1x768, .f32⟩
  | .hbm, ⟨20, _⟩ => ⟨S16x2048x768, .f32⟩
  | .hbm, ⟨21, _⟩ => ⟨S16x2048x768, .f32⟩
  | _, _ => ⟨S16x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S16x2048x768_0_1_2 : S1x1x768.BroadcastsInDim S16x2048x768 (![0, 1, 2] : Fin 3 → Fin S16x2048x768.rank)
  reducesTo_S16x2048x768_S16x768_d1 : S16x2048x768.ReducesTo [1] S16x768
  h_S_ : 0 < S_.numel
  bcast_S16x768_S16x1x768_0_2 : S16x768.BroadcastsInDim S16x1x768 (![0, 2] : Fin 2 → Fin S16x1x768.rank)
  bcast_S_S16x1x768 : S_.BroadcastsInDim S16x1x768 (![] : Fin 0 → Fin S16x1x768.rank)
  bcast_S16x1x768_S16x2048x768_0_1_2 : S16x1x768.BroadcastsInDim S16x2048x768 (![0, 1, 2] : Fin 3 → Fin S16x2048x768.rank)
  dot_S16x2048x768_S768x768_S16x2048x768_2_1_01_0_n_n_wf : DotDims.WF S16x2048x768 S768x768 S16x2048x768 [2] [1] [0, 1] [0] [] []

variable [Facts₀]

def dot_S16x2048x768_S768x768_S16x2048x768_2_1_01_0_n_n : DotDims S16x2048x768 S768x768 S16x2048x768 where
  lhsContracting := [2]
  rhsContracting := [1]
  lhsNonContracting := [0, 1]
  rhsNonContracting := [0]
  lhsBatch := []
  rhsBatch := []
  wf := dot_S16x2048x768_S768x768_S16x2048x768_2_1_01_0_n_n_wf

class Facts : Prop extends Facts₀ where

variable [Facts]
-- ==== Proof.Spec.lean ====
/-
  The two arrangements of one result, over the extended reals, for arrays of the literal shapes
  x1, x2 : [16, 2048, 768], W1, W2 : [768, 768], b1, b2 : [768].

  The kernel pools first and projects once: per batch b it sums x2[b, ·, d] over the 2048 rows, scales the
  sum by the word 0x3A000000 (the dyadic 2^-11 = 1/2048), projects that single row through W2 and adds both
  biases; the row tile of x1 is projected through W1 and the pooled row is added to it:

      kernelForm b l e = Σ_d x1[b,l,d]·W1[e,d] + (((Σ_d ((Σ_j x2[b,j,d]) · 2^-11) · W2[e,d]) + b1[e]) + b2[e]).

  The reference projects every row of x2, adds b2, and only then takes the mean over the 2048 rows, as
  a host sum from the zero word divided by the word 0x45000000 (2048):

      referenceForm b l e = (Σ_d x1[b,l,d]·W1[e,d] + b1[e]) + (0 + Σ_j (Σ_d x2[b,j,d]·W2[e,d] + b2[e])) / 2048.

  Both are written with the float words left as words: the bridge modules read the two programs down to
  exactly these terms, and the law between them (the mean of a linear map is the linear map of the mean,
  which needs x2, W2 and b2 real) is a separate module.
-/
import Idealize.ShloMosaic.PureOps.Ideal
import Idealize.ShloMosaic.Lib.ValueIdx

noncomputable section

open scoped BigOperators

namespace Cert.Spec

open Idealize.ShloMosaic Idealize.ShloMosaic.ValueIdx

/-- The shape of x1, x2 and of the result. -/
abbrev SX : Shape := ⟨3, ![16, 2048, 768]⟩
/-- The shape of W1 and W2 (output feature first, input feature second). -/
abbrev SW : Shape := ⟨2, ![768, 768]⟩
/-- The shape of b1 and b2. -/
abbrev SB : Shape := ⟨1, ![768]⟩

/-- The scale the kernel multiplies the pooled sum by: the word of 2^-11. -/
abbrev invRows : EReal := Ideal.ofBits .f32 0x3A000000#32
/-- The reference's divisor: the word of 2048. -/
abbrev rows : EReal := Ideal.ofBits .f32 0x45000000#32
/-- The reference's initial value of the row sum: the zero word. -/
abbrev zeroWord : EReal := Ideal.ofBits .f32 0x00000000#32

/-- The pooled, projected and biased row the kernel's first region leaves for batch `b` at feature `e`. -/
def pooled (x2 : SX.Idx → EReal) (b1 : SB.Idx → EReal) (w2 : SW.Idx → EReal) (b2 : SB.Idx → EReal)
    (b : Fin 16) (e : Fin 768) : EReal :=
  ((∑ d : Fin 768, ((∑ j : Fin 2048, x2 (ix3 b j d)) * invRows) * w2 (ix2 e d)) + b1 (ix1 e)) + b2 (ix1 e)

/-- The kernel's arrangement of the result at batch `b`, row `l`, feature `e`. -/
def kernelForm (x1 x2 : SX.Idx → EReal) (w1 : SW.Idx → EReal) (b1 : SB.Idx → EReal) (w2 : SW.Idx → EReal)
    (b2 : SB.Idx → EReal) (b : Fin 16) (l : Fin 2048) (e : Fin 768) : EReal :=
  (∑ d : Fin 768, x1 (ix3 b l d) * w1 (ix2 e d)) + pooled x2 b1 w2 b2 b e

/-- The reference's arrangement of the result at batch `b`, row `l`, feature `e`. -/
def referenceForm (x1 x2 : SX.Idx → EReal) (w1 : SW.Idx → EReal) (b1 : SB.Idx → EReal) (w2 : SW.Idx → EReal)
    (b2 : SB.Idx → EReal) (b : Fin 16) (l : Fin 2048) (e : Fin 768) : EReal :=
  ((∑ d : Fin 768, x1 (ix3 b l d) * w1 (ix2 e d)) + b1 (ix1 e))
    + Ideal.div (zeroWord + ∑ j : Fin 2048, ((∑ d : Fin 768, x2 (ix3 b j d) * w2 (ix2 e d)) + b2 (ix1 e))) rows

end Cert.Spec

end
-- ==== Proof.Pool.lean ====
/-
  What the pooling region leaves in its output array, at the contents `V` it is entered with.

  The region has 16 points, one per batch. Point b fetches the whole [2048, 768] slab b of the rows array, the
  whole weight matrix and the two bias rows, sums the slab over its 2048 rows, scales the sum by the word of
  2^-11, contracts it with the weight matrix along the input feature, adds the two bias rows, and writes the
  resulting [1, 1, 768] row back as block b of the [16, 1, 768] output. The 16 blocks tile the output, so the array
  ends as one function of the entry contents: `pooledArray`.
-/
import proofs.«101561_g82446192214446_feedfinal_392_7_alg».proof.Proof.Gen.KernelIdeal.Frame
import proofs.«101561_g82446192214446_feedfinal_392_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen

-- the buffer contents the region is entered with: a parameter, as in the region's own frame half
variable (V : (c : Dev nD) → (b : Ref sig .tc) → Buf (Elt Ideal) ((c : Thread nD τ).loc b))

/-- The rows array (window 0), slab b fetched at point b. -/
abbrev rowsArr (c : Dev nD) : FVec Ideal S16x2048x768 .f32 := V c main_arg1
/-- The weight matrix (window 1), fetched whole at every point. -/
abbrev weightArr (c : Dev nD) : FVec Ideal S768x768 .f32 := V c main_arg4
/-- The first bias as a [1, 768] row (window 2). -/
abbrev biasA (c : Dev nD) : FVec Ideal S1x768 .f32 := V c main_v0
/-- The second bias as a [1, 768] row (window 3). -/
abbrev biasB (c : Dev nD) : FVec Ideal S1x768 .f32 := V c main_v1

/-- What the output array holds after the region, index by index. -/
def pooledArray (c : Dev nD) : FVec Ideal S16x1x768 .f32 := fun i =>
  ((∑ d : Fin 768, ((∑ j : Fin 2048, rowsArr V c (ix3 (i 0) j d)) * Cert.Spec.invRows) * weightArr V c (ix2 (i 2) d))
    + biasA V c (ix2 0 (i 2))) + biasB V c (ix2 0 (i 2))

/-! ## The body's arithmetic at one output feature -/

/-- The pooled row's only row index passes to the left operand's row. -/
theorem lhs_axis0 (i : S1x768.Idx) (q : dot_S1x768_S768x768_S1x768_1_1_0_0_n_n.contr.Idx) :
    (dot_S1x768_S768x768_S1x768_1_1_0_0_n_n.lhsIdx i q 0).val = (i 0).val := by
  unfold DotDims.lhsIdx
  rw [dif_neg (show ¬(0 : Fin S1x768.rank) ∈ dot_S1x768_S768x768_S1x768_1_1_0_0_n_n.lhsBatch by decide), dif_pos (show (0 : Fin S1x768.rank) ∈ dot_S1x768_S768x768_S1x768_1_1_0_0_n_n.lhsNonContracting by decide)]
  rfl
/-- The left operand's column is the contraction position. -/
theorem lhs_axis1 (i : S1x768.Idx) (q : dot_S1x768_S768x768_S1x768_1_1_0_0_n_n.contr.Idx) :
    (dot_S1x768_S768x768_S1x768_1_1_0_0_n_n.lhsIdx i q 1).val = (q ⟨0, by decide⟩).val :=
  dot_S1x768_S768x768_S1x768_1_1_0_0_n_n.lhsIdx_val_of_single rfl i q
/-- The output feature passes to the weight matrix's row. -/
theorem rhs_axis0 (i : S1x768.Idx) (q : dot_S1x768_S768x768_S1x768_1_1_0_0_n_n.contr.Idx) :
    (dot_S1x768_S768x768_S1x768_1_1_0_0_n_n.rhsIdx i q 0).val = (i 1).val := by
  unfold DotDims.rhsIdx
  rw [dif_neg (show ¬(0 : Fin S768x768.rank) ∈ dot_S1x768_S768x768_S1x768_1_1_0_0_n_n.rhsBatch by decide), dif_pos (show (0 : Fin S768x768.rank) ∈ dot_S1x768_S768x768_S1x768_1_1_0_0_n_n.rhsNonContracting by decide)]
  rfl
/-- The weight matrix's column is the contraction position. -/
theorem rhs_axis1 (i : S1x768.Idx) (q : dot_S1x768_S768x768_S1x768_1_1_0_0_n_n.contr.Idx) :
    (dot_S1x768_S768x768_S1x768_1_1_0_0_n_n.rhsIdx i q 1).val = (q ⟨0, by decide⟩).val :=
  dot_S1x768_S768x768_S1x768_1_1_0_0_n_n.rhsIdx_val_of_single rfl i q

/-- A [1, 768] row contracted with a [768, 768] matrix along the second axis of both, into the zero row: at
    feature `e` the sum over the input feature `d` of row[d] · matrix[e, d]. -/
theorem matmul_row (l : FVec Ideal S1x768 .f32) (w : FVec Ideal S768x768 .f32) (e : Fin 768) :
    matmul (F := Ideal) dot_S1x768_S768x768_S1x768_1_1_0_0_n_n none l w (constant (F := Ideal) S1x768 .f32 0x00000000#32) (ix2 0 e)
      = ∑ d : Fin 768, l (ix2 0 d) * w (ix2 e d) := by
  simp only [matmul]
  rw [Ideal.matmul_constant_zero_apply, ← Equiv.sum_comp (contrEquiv1 dot_S1x768_S768x768_S1x768_1_1_0_0_n_n 768 rfl rfl).symm]
  refine Finset.sum_congr rfl fun k _ => ?_
  have hk := contrEquiv1_symm_val dot_S1x768_S768x768_S1x768_1_1_0_0_n_n 768 rfl rfl k
  have el : dot_S1x768_S768x768_S1x768_1_1_0_0_n_n.lhsIdx (ix2 0 e) ((contrEquiv1 dot_S1x768_S768x768_S1x768_1_1_0_0_n_n 768 rfl rfl).symm k) = ix2 0 k := funext fun a => Fin.ext (by
    match a with
    | ⟨0, _⟩ => exact lhs_axis0 _ _
    | ⟨1, _⟩ => exact (lhs_axis1 _ _).trans hk)
  have er : dot_S1x768_S768x768_S1x768_1_1_0_0_n_n.rhsIdx (ix2 0 e) ((contrEquiv1 dot_S1x768_S768x768_S1x768_1_1_0_0_n_n 768 rfl rfl).symm k) = ix2 e k := funext fun a => Fin.ext (by
    match a with
    | ⟨0, _⟩ => exact rhs_axis0 _ _
    | ⟨1, _⟩ => exact (rhs_axis1 _ _).trans hk)
  rw [el, er]

/-- The sum of a [2048, 768] slab over its rows, at column `d`. -/
theorem rowsum_apply (v : FVec Ideal S2048x768 .f32) (d : Fin 768) :
    multiReduction (F := Ideal) .add [0] S768 v 0x00000000#32 reduces_S2048x768_S768 (.inl rfl) rfl (ix1 d)
      = ∑ j : Fin 2048, v (ix2 j d) := by
  refine (Ideal.multiReduction_add_single v 0x00000000#32 reduces_S2048x768_S768 (.inl rfl) rfl (ix1 d)).trans ?_
  exact Finset.sum_congr rfl fun j _ => congrArg v (funext fun a => Fin.ext (by
    match a with
    | ⟨0, _⟩ => rfl
    | ⟨1, _⟩ => rfl))

/-- The stored row at feature `e`, from the four loaded blocks: the slab summed over its rows and scaled, contracted
    with the weight matrix, plus the two bias rows. -/
theorem pay_apply (x0 : FVec Ideal S1x2048x768 .f32) (x1 : FVec Ideal S768x768 .f32) (x2 x3 : FVec Ideal S1x768 .f32) (e : Fin 768) :
    k0_pay1 (F := Ideal) x0 x1 x2 x3 (ix3 0 0 e)
      = ((∑ d : Fin 768, ((∑ j : Fin 2048, x0 (ix3 0 j d)) * Cert.Spec.invRows) * x1 (ix2 e d)) + x2 (ix2 0 e)) + x3 (ix2 0 e) := by
  unfold k0_pay1
  refine (shapeCast_ab_1ab_apply _ _ 0 0 e).trans ?_
  rw [addf_apply, addf_apply, shapeCast_self, shapeCast_self, matmul_row]
  refine congrArg (· + x3 (ix2 0 e)) (congrArg (· + x2 (ix2 0 e)) (Finset.sum_congr rfl fun d _ => ?_))
  refine congrArg (· * x1 (ix2 e d)) ?_
  rw [mulf_apply, broadcast_apply]
  refine congrArg (· * Cert.Spec.invRows) ?_
  refine (shapeCast_a_1a_apply _ _ 0 d).trans ?_
  refine (rowsum_apply _ d).trans (Finset.sum_congr rfl fun j _ => ?_)
  exact shapeCast_1ab_ab_apply x0 _ j d

/-! ## The windows' blocks as pieces of the entry arrays -/

theorem zero3 : (![0, 0, 0] : Fin 3 → Nat) = fun _ => 0 := funext fun a => by fin_cases a <;> rfl
theorem zero2 : (![0, 0] : Fin 2 → Nat) = fun _ => 0 := funext fun a => by fin_cases a <;> rfl

/-- The batch a grid point works on: the point's own number. -/
def batchAt (t : Fin cfg0.N) : Fin 16 := ⟨t.val, lt_of_lt_of_eq t.isLt N_0⟩

/-- The printed index maps over the 16 points: the rows window and the output window sit at block (t, 0, 0), the
    weight matrix and the two bias rows at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Point t's block of the rows array is slab t. -/
theorem rows_block (c : Dev nD) (t : Fin cfg0.N) (j : Fin 2048) (d : Fin 768) :
    (iblk0 V c 0 t : FVec Ideal S1x2048x768 .f32) (ix3 0 j d) = rowsArr V c (ix3 (batchAt t) j d) := by
  obtain ⟨h0, h1, h2, -⟩ := index_facts t
  unfold iblk0
  rw [View.read_apply]
  refine congrArg (rowsArr V c) (funext fun a => Fin.ext ?_)
  match a with
  | ⟨0, _⟩ => show win0_0.index t (0 : Fin 3) * 1 + 1 * 0 = t.val; omega
  | ⟨1, _⟩ => show win0_0.index t (1 : Fin 3) * 2048 + 1 * j.val = j.val; omega
  | ⟨2, _⟩ => show win0_0.index t (2 : Fin 3) * 768 + 1 * d.val = d.val; omega

/-- Every point's block of the weight matrix is the whole matrix. -/
theorem weight_block (c : Dev nD) (t : Fin cfg0.N) (e d : Fin 768) :
    (iblk0 V c 1 t : FVec Ideal S768x768 .f32) (ix2 e d) = weightArr V c (ix2 e d) := by
  obtain ⟨-, -, -, h0, h1, -⟩ := index_facts t
  unfold iblk0
  rw [View.read_apply]
  refine congrArg (weightArr V c) (funext fun a => Fin.ext ?_)
  match a with
  | ⟨0, _⟩ => show win0_1.index t (0 : Fin 2) * 768 + 1 * e.val = e.val; omega
  | ⟨1, _⟩ => show win0_1.index t (1 : Fin 2) * 768 + 1 * d.val = d.val; omega

/-- Every point's block of the first bias row is the whole row. -/
theorem biasA_block (c : Dev nD) (t : Fin cfg0.N) (e : Fin 768) :
    (iblk0 V c 2 t : FVec Ideal S1x768 .f32) (ix2 0 e) = biasA V c (ix2 0 e) := by
  obtain ⟨-, -, -, -, -, h0, h1, -⟩ := index_facts t
  unfold iblk0
  rw [View.read_apply]
  refine congrArg (biasA V c) (funext fun a => Fin.ext ?_)
  match a with
  | ⟨0, _⟩ => show win0_2.index t (0 : Fin 2) * 1 + 1 * 0 = 0; omega
  | ⟨1, _⟩ => show win0_2.index t (1 : Fin 2) * 768 + 1 * e.val = e.val; omega

/-- Every point's block of the second bias row is the whole row. -/
theorem biasB_block (c : Dev nD) (t : Fin cfg0.N) (e : Fin 768) :
    (iblk0 V c 3 t : FVec Ideal S1x768 .f32) (ix2 0 e) = biasB V c (ix2 0 e) := by
  obtain ⟨-, -, -, -, -, -, -, h0, h1, -⟩ := index_facts t
  unfold iblk0
  rw [View.read_apply]
  refine congrArg (biasB V c) (funext fun a => Fin.ext ?_)
  match a with
  | ⟨0, _⟩ => show win0_3.index t (0 : Fin 2) * 1 + 1 * 0 = 0; omega
  | ⟨1, _⟩ => show win0_3.index t (1 : Fin 2) * 768 + 1 * e.val = e.val; omega

/-! ## What a point writes back, and the cover -/

/-- The row point t stores, read at an index `y` of the [1, 1, 768] block, is `pooledArray` at any index of the
    [16, 1, 768] array whose batch is t and whose feature is y's. -/
theorem block_value (c : Dev nD) (t : Fin cfg0.N) (y : S1x1x768.Idx) (i : S16x1x768.Idx)
    (h0 : (i 0).val = t.val) (h2 : (i 2).val = (y 2).val) :
    k0_pay1 (F := Ideal) (iblk0 V c 0 t) (iblk0 V c 1 t) (iblk0 V c 2 t) (iblk0 V c 3 t) y = pooledArray V c i := by
  obtain ⟨u, v, e, rfl⟩ : ∃ (u : Fin 1) (v : Fin 1) (e : Fin 768), y = ix3 u v e := ⟨y 0, y 1, y 2, eq_ix3 y⟩
  obtain rfl : u = 0 := Subsingleton.elim _ _
  obtain rfl : v = 0 := Subsingleton.elim _ _
  have hb : i 0 = batchAt t := Fin.ext h0
  have he : i 2 = e := Fin.ext h2
  refine (pay_apply (iblk0 V c 0 t) (iblk0 V c 1 t) (iblk0 V c 2 t) (iblk0 V c 3 t) e).trans ?_
  unfold pooledArray
  rw [hb, he, biasA_block V c t e, biasB_block V c t e]
  refine congrArg (· + biasB V c (ix2 0 e)) (congrArg (· + biasA V c (ix2 0 e)) (Finset.sum_congr rfl fun d _ => ?_))
  rw [weight_block V c t e d]
  refine congrArg (· * weightArr V c (ix2 e d)) (congrArg (· * Cert.Spec.invRows) (Finset.sum_congr rfl fun j _ => ?_))
  exact rows_block V c t j d

/-- What point t writes back is block t of `pooledArray`. -/
theorem flushed_eq (c : Dev nD) (t : Fin cfg0.N) :
    (dat0 (F := Ideal) V c).flushed 4 t = ((cfg0.win 4).blk t).view.read (Elt Ideal) (pooledArray V c) := by
  show (cfg0.win 4).cut (grid0.coords t) ((dat0 (F := Ideal) V c).after 4 t) = _
  rw [after0_4]
  unfold out0_4
  rw [View.canon_unit_zero zero3]
  simp only [View.ld_unit_zero (S := S1x2048x768) zero3, View.ld_unit_zero (S := S768x768) zero2, View.ld_unit_zero (S := S1x768) zero2]
  funext y
  obtain ⟨-, -, -, -, -, -, -, -, -, h0, h1, h2⟩ := index_facts t
  rw [View.read_apply]
  have hy0 : (y 0).val < 1 := (y 0).isLt
  refine block_value V c t y _ ?_ ?_
  · show win0_4.index t (0 : Fin 3) * 1 + 1 * (y 0).val = t.val
    omega
  · show win0_4.index t (2 : Fin 3) * 768 + 1 * (y 2).val = (y 2).val
    omega

/-- An index of the output array lies in point t's block iff each coordinate lies in the block's range on its axis. -/
theorem mem_block (t : Fin cfg0.N) (i : S16x1x768.Idx) :
    i ∈ ((cfg0.win 4).blk t).view.set ↔ ∀ a : Fin 3, win0_4.index t a * S1x1x768.size a ≤ (i a).val ∧ (i a).val < win0_4.index t a * S1x1x768.size a + S1x1x768.size a := by
  show i ∈ ((View.whole main_v2).slice (win0_4.rect t)).set ↔ _
  rw [View.set_slice_whole, Rect.mem_set_unit]
  exact Iff.rfl

/-- Every index of the output array lies in the block of the point numbered by its batch, and every point writes back. -/
theorem covered (i : S16x1x768.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 768 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, h0, h1, h2⟩ := index_facts t
  refine ⟨t, flush0_4 t, ?_⟩
  rw [mem_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 768 ≤ (i 2).val ∧ (i 2).val < win0_4.index t (2 : Fin 3) * 768 + 768; omega

/-- The output array after the last point is `pooledArray` of the entry contents: the 16 write-backs are blocks of it
    and tile the array. -/
theorem pool_array (c : Dev nD) : (dat0 (F := Ideal) V c).arrAt 4 cfg0.N = pooledArray V c :=
  (dat0 (F := Ideal) V c).arrAt_eq_of_cover 4 (pooledArray V c) (fun t _ => flushed_eq V c t) (covered)

end Cert.KernelIdeal.Pool

end
-- ==== Proof.Proj.lean ====
/-
  What the projection region leaves in its output array, at the contents `V` it is entered with.

  The region has 64 points, one per [512, 768] row tile. Point t fetches tile t of the [64, 512, 768] tiles array,
  the whole weight matrix, and block t / 4 of the [16, 1, 768] pooled rows (four tiles to a batch); it contracts the
  tile with the weight matrix along the input feature (the narrowing of the tile to the matrix's format is the
  identity on extended reals), adds the pooled row to every row of the product, and writes the [1, 512, 768]
  result back as block t of the output. The 64 blocks tile the output, so the array ends as one function of the
  entry contents: `projectedArray`.
-/
import proofs.«101561_g82446192214446_feedfinal_392_7_alg».proof.Proof.Gen.KernelIdeal.Frame
import proofs.«101561_g82446192214446_feedfinal_392_7_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

-- the buffer contents the region is entered with: a parameter, as in the region's own frame half
variable (V : (c : Dev nD) → (b : Ref sig .tc) → Buf (Elt Ideal) ((c : Thread nD τ).loc b))

/-- The row tiles (window 0), tile t fetched at point t. -/
abbrev tilesArr (c : Dev nD) : FVec Ideal S64x512x768 .f32 := V c main_v3
/-- The weight matrix in the narrow format (window 1), fetched whole at every point. -/
abbrev weightArr (c : Dev nD) : FVec Ideal S768x768 .bf16 := V c main_v4
/-- The pooled rows (window 2), block t / 4 fetched at point t. -/
abbrev pooledArr (c : Dev nD) : FVec Ideal S16x1x768 .f32 := V c main_v2

/-- The batch a tile belongs to: four tiles to a batch. -/
def batchOf (t : Fin 64) : Fin 16 := ⟨t.val / 4, by have := t.isLt; omega⟩

/-- What the output array holds after the region, index by index. -/
def projectedArray (c : Dev nD) : FVec Ideal S64x512x768 .f32 := fun i =>
  (∑ d : Fin 768, tilesArr V c (ix3 (i 0) (i 1) d) * weightArr V c (ix2 (i 2) d)) + pooledArr V c (ix3 (batchOf (i 0)) 0 (i 2))

/-! ## The body's payload at an index -/

/-- The product's left operand index at output index `i` and contraction index `q`: its row is the output's row. -/
theorem lhs_axis0 (i : S512x768.Idx) (q : Cert.KernelIdeal.dot_S512x768_S768x768_S512x768_1_1_0_0_n_n.contr.Idx) :
    (Cert.KernelIdeal.dot_S512x768_S768x768_S512x768_1_1_0_0_n_n.lhsIdx i q 0).val = (i 0).val := by
  unfold DotDims.lhsIdx
  rw [dif_neg (show ¬(0 : Fin S512x768.rank) ∈ Cert.KernelIdeal.dot_S512x768_S768x768_S512x768_1_1_0_0_n_n.lhsBatch by decide), dif_pos (show (0 : Fin S512x768.rank) ∈ Cert.KernelIdeal.dot_S512x768_S768x768_S512x768_1_1_0_0_n_n.lhsNonContracting by decide)]
  rfl
/-- Its column is the contraction index. -/
theorem lhs_axis1 (i : S512x768.Idx) (q : Cert.KernelIdeal.dot_S512x768_S768x768_S512x768_1_1_0_0_n_n.contr.Idx) :
    (Cert.KernelIdeal.dot_S512x768_S768x768_S512x768_1_1_0_0_n_n.lhsIdx i q 1).val = (q ⟨0, by decide⟩).val :=
  Cert.KernelIdeal.dot_S512x768_S768x768_S512x768_1_1_0_0_n_n.lhsIdx_val_of_single rfl i q
/-- The right operand's row is the output's column (the matrix is stored output feature first). -/
theorem rhs_axis0 (i : S512x768.Idx) (q : Cert.KernelIdeal.dot_S512x768_S768x768_S512x768_1_1_0_0_n_n.contr.Idx) :
    (Cert.KernelIdeal.dot_S512x768_S768x768_S512x768_1_1_0_0_n_n.rhsIdx i q 0).val = (i 1).val := by
  unfold DotDims.rhsIdx
  rw [dif_neg (show ¬(0 : Fin S768x768.rank) ∈ Cert.KernelIdeal.dot_S512x768_S768x768_S512x768_1_1_0_0_n_n.rhsBatch by decide), dif_pos (show (0 : Fin S768x768.rank) ∈ Cert.KernelIdeal.dot_S512x768_S768x768_S512x768_1_1_0_0_n_n.rhsNonContracting by decide)]
  rfl
/-- Its column is the contraction index. -/
theorem rhs_axis1 (i : S512x768.Idx) (q : Cert.KernelIdeal.dot_S512x768_S768x768_S512x768_1_1_0_0_n_n.contr.Idx) :
    (Cert.KernelIdeal.dot_S512x768_S768x768_S512x768_1_1_0_0_n_n.rhsIdx i q 1).val = (q ⟨0, by decide⟩).val :=
  Cert.KernelIdeal.dot_S512x768_S768x768_S512x768_1_1_0_0_n_n.rhsIdx_val_of_single rfl i q

/-- The product into the zero accumulator, read at (r, e): the row r of the left operand against the row e of the right. -/
theorem matmul_at (a : FVec Ideal S512x768 .bf16) (b : FVec Ideal S768x768 .bf16) (r : Fin 512) (e : Fin 768) :
    matmul (F := Ideal) Cert.KernelIdeal.dot_S512x768_S768x768_S512x768_1_1_0_0_n_n none a b (constant (F := Ideal) S512x768 .f32 0x00000000#32) (ix2 r e)
      = ∑ d : Fin 768, a (ix2 r d) * b (ix2 e d) := by
  refine (Ideal.matmul_constant_zero_apply Cert.KernelIdeal.dot_S512x768_S768x768_S512x768_1_1_0_0_n_n none a b (ix2 r e)).trans ?_
  rw [← Equiv.sum_comp (ValueIdx.contrEquiv1 Cert.KernelIdeal.dot_S512x768_S768x768_S512x768_1_1_0_0_n_n 768 rfl rfl).symm]
  refine Finset.sum_congr rfl fun k _ => ?_
  have hk := ValueIdx.contrEquiv1_symm_val Cert.KernelIdeal.dot_S512x768_S768x768_S512x768_1_1_0_0_n_n 768 rfl rfl k
  have el : Cert.KernelIdeal.dot_S512x768_S768x768_S512x768_1_1_0_0_n_n.lhsIdx (ix2 r e) ((ValueIdx.contrEquiv1 Cert.KernelIdeal.dot_S512x768_S768x768_S512x768_1_1_0_0_n_n 768 rfl rfl).symm k) = ix2 r k := funext fun ax => Fin.ext (by
    match ax with
    | ⟨0, _⟩ => exact lhs_axis0 _ _
    | ⟨1, _⟩ => exact (lhs_axis1 _ _).trans hk)
  have er : Cert.KernelIdeal.dot_S512x768_S768x768_S512x768_1_1_0_0_n_n.rhsIdx (ix2 r e) ((ValueIdx.contrEquiv1 Cert.KernelIdeal.dot_S512x768_S768x768_S512x768_1_1_0_0_n_n 768 rfl rfl).symm k) = ix2 e k := funext fun ax => Fin.ext (by
    match ax with
    | ⟨0, _⟩ => exact rhs_axis0 _ _
    | ⟨1, _⟩ => exact (rhs_axis1 _ _).trans hk)
  rw [el, er]

/-- The payload at (0, r, e): the tile's row r against the weight matrix's row e, plus the pooled row at e. -/
theorem payload_at (x0 : Vec Ideal S1x512x768 .f32) (x1 : Vec Ideal S768x768 .bf16) (x2 : Vec Ideal S1x1x768 .f32)
    (r : Fin 512) (e : Fin 768) :
    k1_pay1 (F := Ideal) x0 x1 x2 (ix3 0 r e) = (∑ d : Fin 768, x0 (ix3 0 r d) * x1 (ix2 e d)) + x2 (ix3 0 0 e) := by
  unfold k1_pay1
  refine (shapeCast_ab_1ab_apply _ shapeCasts_S512x768_S1x512x768 0 r e).trans ?_
  refine (addf_apply _ _ _).trans ?_
  refine congrArg₂ (· + ·) ?_ ?_
  · refine (matmul_at _ _ r e).trans ?_
    refine Finset.sum_congr rfl fun d _ => ?_
    refine congrArg₂ (· * ·) ?_ ?_
    · refine (truncf_apply _ bitsLt_bf16_f32 _).trans ?_
      exact shapeCast_1ab_ab_apply x0 shapeCasts_S1x512x768_S512x768 r d
    · rw [shapeCast_self]
  · refine (broadcastTo_1b_ab_apply _ broadcasts_S1x768_S512x768 r e).trans ?_
    exact shapeCast_1ab_ab_apply x2 shapeCasts_S1x1x768_S1x768 0 e

/-! ## The input blocks read off the arrays -/

/-- The printed index maps over the 64 points (decided): the tile and the output block move with the point, the weight
    matrix stays, the pooled row's block is the point's batch. -/
theorem index_facts : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 3) = t.val / 4 ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0 :=
  (by decide +kernel : ∀ t : Fin grid1.N, _)

/-- The tile fetched at point t, at (0, r, d), is the tiles array at (t, r, d). -/
theorem tile_block_at (c : Dev nD) (t : Fin cfg1.N) (t' : Fin 64) (ht : t'.val = t.val) (r : Fin 512) (d : Fin 768) :
    (iblk1 V c 0 t : Vec Ideal S1x512x768 .f32) (ix3 0 r d) = tilesArr V c (ix3 t' r d) := by
  obtain ⟨e0, e1, e2, -⟩ := index_facts t
  unfold iblk1
  rw [View.read_apply]
  show V c main_v3 _ = V c main_v3 _
  congr 1
  funext a
  apply Fin.ext
  match a with
  | ⟨0, _⟩ => show win1_0.index t (0 : Fin 3) * 1 + 1 * 0 = t'.val; omega
  | ⟨1, _⟩ => show win1_0.index t (1 : Fin 3) * 512 + 1 * r.val = r.val; omega
  | ⟨2, _⟩ => show win1_0.index t (2 : Fin 3) * 768 + 1 * d.val = d.val; omega

/-- The weight matrix fetched at any point is the weight array. -/
theorem weight_block_at (c : Dev nD) (t : Fin cfg1.N) (e d : Fin 768) :
    (iblk1 V c 1 t : Vec Ideal S768x768 .bf16) (ix2 e d) = weightArr V c (ix2 e d) := by
  obtain ⟨-, -, -, e0, e1, -⟩ := index_facts t
  unfold iblk1
  rw [View.read_apply]
  show V c main_v4 _ = V c main_v4 _
  congr 1
  funext a
  apply Fin.ext
  match a with
  | ⟨0, _⟩ => show win1_1.index t (0 : Fin 2) * 768 + 1 * e.val = e.val; omega
  | ⟨1, _⟩ => show win1_1.index t (1 : Fin 2) * 768 + 1 * d.val = d.val; omega

/-- The pooled row fetched at point t, at (0, 0, e), is the pooled array's row of t's batch at e. -/
theorem pooled_block_at (c : Dev nD) (t : Fin cfg1.N) (t' : Fin 64) (ht : t'.val = t.val) (e : Fin 768) :
    (iblk1 V c 2 t : Vec Ideal S1x1x768 .f32) (ix3 0 0 e) = pooledArr V c (ix3 (batchOf t') 0 e) := by
  obtain ⟨-, -, -, -, -, e0, e1, e2, -⟩ := index_facts t
  unfold iblk1
  rw [View.read_apply]
  show V c main_v2 _ = V c main_v2 _
  congr 1
  funext a
  apply Fin.ext
  match a with
  | ⟨0, _⟩ => show win1_2.index t (0 : Fin 3) * 1 + 1 * 0 = t'.val / 4; rw [e0, ht]; omega
  | ⟨1, _⟩ => show win1_2.index t (1 : Fin 3) * 1 + 1 * 0 = 0; omega
  | ⟨2, _⟩ => show win1_2.index t (2 : Fin 3) * 768 + 1 * e.val = e.val; omega

/-! ## From the blocks to the array -/

theorem zero_offsets3 : (![0, 0, 0] : Fin 3 → Nat) = fun _ => 0 := funext fun a => by fin_cases a <;> rfl
theorem zero_offsets2 : (![0, 0] : Fin 2 → Nat) = fun _ => 0 := funext fun a => by fin_cases a <;> rfl

/-- The payload of point t's three blocks, at an index of the block, is the projected array at the point's tile. -/
theorem payload_blocks_at (c : Dev nD) (t : Fin cfg1.N) (t' : Fin 64) (ht : t'.val = t.val) (j : S1x512x768.Idx) :
    k1_pay1 (F := Ideal) (iblk1 V c 0 t) (iblk1 V c 1 t) (iblk1 V c 2 t) j = projectedArray V c (ix3 t' (j 1) (j 2)) := by
  obtain ⟨u, r, e, rfl⟩ : ∃ (u : Fin 1) (r : Fin 512) (e : Fin 768), j = ix3 u r e := ⟨j 0, j 1, j 2, eq_ix3 j⟩
  obtain rfl : u = 0 := Subsingleton.elim _ _
  refine (payload_at (iblk1 V c 0 t) (iblk1 V c 1 t) (iblk1 V c 2 t) r e).trans ?_
  unfold projectedArray
  exact congrArg₂ (· + ·)
    (Finset.sum_congr rfl fun d _ => congrArg₂ (· * ·) (tile_block_at V c t t' ht r d) (weight_block_at V c t e d))
    (pooled_block_at V c t t' ht e)

/-- What point t writes back is block t of the projected array. -/
theorem flushed_eq (c : Dev nD) (t : Fin cfg1.N) :
    (dat1 (F := Ideal) V c).flushed 3 t = ((cfg1.win 3).blk t).view.read (Elt Ideal) (projectedArray V c) := by
  have ht64 : t.val < 64 := lt_of_lt_of_eq t.isLt N_1
  show (cfg1.win 3).cut (grid1.coords t) ((dat1 V c).after 3 t) = _
  rw [after1_3]
  unfold out1_3
  rw [View.canon_unit_zero zero_offsets3]
  simp only [View.ld_unit_zero (S := S1x512x768) zero_offsets3, View.ld_unit_zero (S := S768x768) zero_offsets2,
    View.ld_unit_zero (S := S1x1x768) zero_offsets3]
  obtain ⟨-, -, -, -, -, -, -, -, e0, e1, e2⟩ := index_facts t
  funext j
  refine (payload_blocks_at V c t ⟨t.val, ht64⟩ rfl j).trans ?_
  show projectedArray V c _ = projectedArray V c (((cfg1.win 3).blk t).view.emb j)
  congr 1
  funext a
  apply Fin.ext
  match a with
  | ⟨0, _⟩ => show t.val = win1_3.index t (0 : Fin 3) * 1 + 1 * (j 0).val; have hj : (j 0).val < 1 := (j 0).isLt; omega
  | ⟨1, _⟩ => show (j 1).val = win1_3.index t (1 : Fin 3) * 512 + 1 * (j 1).val; omega
  | ⟨2, _⟩ => show (j 2).val = win1_3.index t (2 : Fin 3) * 768 + 1 * (j 2).val; omega

/-- An index of the output array is in point t's block iff each coordinate is in the block's range on its axis. -/
theorem mem_block (t : Fin cfg1.N) (i : S64x512x768.Idx) :
    i ∈ ((cfg1.win 3).blk t).view.set ↔ ∀ a : Fin 3, win1_3.index t a * S1x512x768.size a ≤ (i a).val ∧ (i a).val < win1_3.index t a * S1x512x768.size a + S1x512x768.size a := by
  show i ∈ ((View.whole main_v5).slice (win1_3.rect t)).set ↔ _
  rw [View.set_slice_whole, Rect.mem_set_unit]
  exact Iff.rfl

/-- The 64 blocks tile the output: the index (t, r, e) is in the block of point t. -/
theorem cover (i : S64x512x768.Idx) :
    ∃ t : Fin cfg1.N, (cfg1.win 3).flush t = true ∧ i ∈ ((cfg1.win 3).blk t).view.set := by
  have hN : grid1.N = 64 := N_1
  have h0 : (i 0).val < 64 := (i 0).isLt
  have h1 : (i 1).val < 512 := (i 1).isLt
  have h2 : (i 2).val < 768 := (i 2).isLt
  obtain ⟨t, ht⟩ : ∃ t : Fin cfg1.N, t.val = (i 0).val := ⟨⟨(i 0).val, by show (i 0).val < grid1.N; omega⟩, rfl⟩
  refine ⟨t, flush1_3 t, ?_⟩
  rw [mem_block]
  obtain ⟨-, -, -, -, -, -, -, -, e0, e1, e2⟩ := index_facts t
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 768 ≤ (i 2).val ∧ (i 2).val < win1_3.index t (2 : Fin 3) * 768 + 768; omega

/-- The output array after the last point is `projectedArray` of the entry contents. -/
theorem proj_array (c : Dev nD) : (dat1 (F := Ideal) V c).arrAt 3 cfg1.N = projectedArray V c :=
  (dat1 (F := Ideal) V c).arrAt_eq_of_cover 3 (projectedArray V c) (fun t _ => flushed_eq V c t) cover

end Cert.KernelIdeal.Proj

end
-- ==== Proof.Result.lean ====
/-
  The kernel's result array, read at one index as the kernel's arrangement of the six argument arrays.

  @main is five segments: two reshapes of the biases to [1, 768] rows; the pooling region; a reshape of the first
  input to 64 row tiles of [512, 768] and the narrowing of the first weight matrix (the identity on extended reals);
  the projection region; and the reshape of its [64, 512, 768] output back to [16, 2048, 768]. Reading the last
  boundary's contents at the result buffer walks back through them: the result at (b, l, e) is the projection
  region's output at tile 4·b + l / 512, row l mod 512 (both reshapes keep the row-major position, and
  (4·b + l / 512)·512 + l mod 512 = 2048·b + l), whose pooled row is the one of batch (4·b + l / 512) / 4 = b; the
  pooling region's entry arrays are the second input, the second weight matrix and the two bias rows as launched.
-/
import proofs.«101561_g82446192214446_feedfinal_392_7_alg».proof.Proof.Pool
import proofs.«101561_g82446192214446_feedfinal_392_7_alg».proof.Proof.Proj
import Idealize.ShloMosaic.Lib.StableHlo.Run

set_option maxRecDepth 16384

noncomputable section

open scoped BigOperators
open Idealize.ShloMosaic Idealize.ShloMosaic.TcCoe Idealize.SL.Sem Idealize.ShloMosaic.ValueIdx Idealize.ShloMosaic.StableHlo

namespace Cert.KernelIdeal.Result

open Cert.KernelIdeal Cert.KernelIdeal.Gen

variable (m : (ℓ : Loc nD τ sig) → Buf (Elt Ideal) ℓ) (ρ : Dev nD → PrngReg)

/-! ## The regions' entry arrays, read back to the launch memory -/

/-- The pooling region's rows array is the second input as launched. -/
theorem rows_entry (c : Dev nD) :
    Cert.KernelIdeal.Pool.rowsArr (V1 m ρ) c = m ((c : Thread nD τ).loc main_arg1) := by
  show StableHlo.after hostOps0 (W0 m ρ c) (Proc.devRef .tc main_arg1) = _
  after_results

/-- Its weight matrix is the second weight matrix as launched. -/
theorem weight2_entry (c : Dev nD) :
    Cert.KernelIdeal.Pool.weightArr (V1 m ρ) c = m ((c : Thread nD τ).loc main_arg4) := by
  show StableHlo.after hostOps0 (W0 m ρ c) (Proc.devRef .tc main_arg4) = _
  after_results

/-- Its first bias row is the first bias reshaped to [1, 768]. -/
theorem biasA_entry (c : Dev nD) :
    Cert.KernelIdeal.Pool.biasA (V1 m ρ) c = shapeCast S1x768 (m ((c : Thread nD τ).loc main_arg3) : FVec Ideal S768 .f32) shapeCasts_S768_S1x768 := by
  show StableHlo.after hostOps0 (W0 m ρ c) (Proc.devRef .tc main_v0) = _
  after_results
  rfl

/-- Its second bias row is the second bias reshaped to [1, 768]. -/
theorem biasB_entry (c : Dev nD) :
    Cert.KernelIdeal.Pool.biasB (V1 m ρ) c = shapeCast S1x768 (m ((c : Thread nD τ).loc main_arg5) : FVec Ideal S768 .f32) shapeCasts_S768_S1x768 := by
  show StableHlo.after hostOps0 (W0 m ρ c) (Proc.devRef .tc main_v1) = _
  after_results
  rfl

/-- Neither the first stretch of host operations nor the pooling region writes the first input. -/
theorem arg0_at_W2 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)

/-- Nor the first weight matrix. -/
theorem arg2_at_W2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)

/-- The projection region's tiles array is the first input reshaped to 64 tiles of [512, 768]. -/
theorem tiles_entry (c : Dev nD) :
    Cert.KernelIdeal.Proj.tilesArr (V3 m ρ) c = shapeCast S64x512x768 (m ((c : Thread nD τ).loc main_arg0) : FVec Ideal S16x2048x768 .f32) shapeCasts_S16x2048x768_S64x512x768 := by
  show StableHlo.after hostOps1 (W2 m ρ c) (Proc.devRef .tc main_v3) = _
  after_results
  exact congrArg (fun X : FVec Ideal S16x2048x768 .f32 => shapeCast S64x512x768 X shapeCasts_S16x2048x768_S64x512x768) (arg0_at_W2 m ρ c)

/-- Its weight matrix is the first weight matrix narrowed, which changes no extended real. -/
theorem weight1_entry (c : Dev nD) :
    Cert.KernelIdeal.Proj.weightArr (V3 m ρ) c = truncf .bf16 (m ((c : Thread nD τ).loc main_arg2) : FVec Ideal S768x768 .f32) bitsLt_bf16_f32 := by
  show StableHlo.after hostOps1 (W2 m ρ c) (Proc.devRef .tc main_v4) = _
  after_results
  exact congrArg (fun X : FVec Ideal S768x768 .f32 => truncf .bf16 X bitsLt_bf16_f32) (arg2_at_W2 m ρ c)

/-- Its pooled rows are what the pooling region left. -/
theorem pooled_entry (c : Dev nD) :
    Cert.KernelIdeal.Proj.pooledArr (V3 m ρ) c = Cert.KernelIdeal.Pool.pooledArray (V1 m ρ) c := by
  show StableHlo.after hostOps1 (W2 m ρ c) (Proc.devRef .tc main_v2) = _
  after_results
  exact (W2_arr m ρ c 4).trans (Cert.KernelIdeal.Pool.pool_array (V1 m ρ) c)

/-- The result array is the projection region's output reshaped to [16, 2048, 768]. -/
theorem result_eq (c : Dev nD) :
    (W5 m ρ c (Proc.devRef .tc main_v6) : FVec Ideal S16x2048x768 .f32)
      = shapeCast S16x2048x768 (Cert.KernelIdeal.Proj.projectedArray (V3 m ρ) c) shapeCasts_S64x512x768_S16x2048x768 := by
  show StableHlo.after hostOps2 (W4 m ρ c) (Proc.devRef .tc main_v6) = _
  after_results
  exact congrArg (fun X : FVec Ideal S64x512x768 .f32 => shapeCast S16x2048x768 X shapeCasts_S64x512x768_S16x2048x768)
    ((W4_arr m ρ c 3).trans (Cert.KernelIdeal.Proj.proj_array (V3 m ρ) c))

/-! ## The result at an index -/

/-- Row l of batch b is row l mod 512 of tile 4·b + l / 512: the two have the same row-major position. -/
theorem tile_position (b : Fin 16) (l : Fin 2048) (x : Fin 768) (t : Fin 64) (r : Fin 512)
    (ht : t.val = 4 * b.val + l.val / 512) (hr : r.val = l.val % 512) :
    (S64x512x768.rowMajor (ix3 t r x)).val = (S16x2048x768.rowMajor (ix3 b l x)).val := by
  rw [Shape.rowMajor_val_three, Shape.rowMajor_val_three]
  show (t.val * 512 + r.val) * 768 + x.val = (b.val * 2048 + l.val) * 768 + x.val
  have := l.isLt
  omega

/-- The kernel's result at batch b, row l, feature e is the kernel's arrangement of the six arguments. -/
theorem result_at (c : Dev nD) (b : Fin 16) (l : Fin 2048) (e : Fin 768) :
    (W5 m ρ c (Proc.devRef .tc main_v6) : FVec Ideal S16x2048x768 .f32) (ix3 b l e)
      = Cert.Spec.kernelForm (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) b l e := by
  have hb := b.isLt
  have hl := l.isLt
  obtain ⟨t, ht⟩ : ∃ t : Fin 64, t.val = 4 * b.val + l.val / 512 := ⟨⟨4 * b.val + l.val / 512, by omega⟩, rfl⟩
  obtain ⟨r, hr⟩ : ∃ r : Fin 512, r.val = l.val % 512 := ⟨⟨l.val % 512, Nat.mod_lt _ (by decide)⟩, rfl⟩
  have hbt : Cert.KernelIdeal.Proj.batchOf t = b := Fin.ext (by show t.val / 4 = b.val; omega)
  refine (congrFun (result_eq m ρ c) (ix3 b l e)).trans ?_
  refine (shapeCast_apply _ _ (ix3 b l e) (ix3 t r e) (tile_position b l e t r ht hr)).trans ?_
  unfold Cert.KernelIdeal.Proj.projectedArray Cert.Spec.kernelForm
  show (∑ d : Fin 768, Cert.KernelIdeal.Proj.tilesArr (V3 m ρ) c (ix3 t r d) * Cert.KernelIdeal.Proj.weightArr (V3 m ρ) c (ix2 e d))
      + Cert.KernelIdeal.Proj.pooledArr (V3 m ρ) c (ix3 (Cert.KernelIdeal.Proj.batchOf t) 0 e) = _
  rw [hbt, pooled_entry, tiles_entry, weight1_entry]
  have htile : ∀ d : Fin 768,
      shapeCast S64x512x768 (m ((c : Thread nD τ).loc main_arg0) : FVec Ideal S16x2048x768 .f32) shapeCasts_S16x2048x768_S64x512x768 (ix3 t r d)
        = m ((c : Thread nD τ).loc main_arg0) (ix3 b l d) :=
    fun d => shapeCast_apply _ _ (ix3 t r d) (ix3 b l d) (tile_position b l d t r ht hr).symm
  have hpool : Cert.KernelIdeal.Pool.pooledArray (V1 m ρ) c (ix3 b 0 e)
      = Cert.Spec.pooled (m ((c : Thread nD τ).loc main_arg1)) (m ((c : Thread nD τ).loc main_arg3))
          (m ((c : Thread nD τ).loc main_arg4)) (m ((c : Thread nD τ).loc main_arg5)) b e := by
    unfold Cert.KernelIdeal.Pool.pooledArray Cert.Spec.pooled
    show ((∑ d : Fin 768, ((∑ j : Fin 2048, Cert.KernelIdeal.Pool.rowsArr (V1 m ρ) c (ix3 b j d)) * Cert.Spec.invRows)
        * Cert.KernelIdeal.Pool.weightArr (V1 m ρ) c (ix2 e d)) + Cert.KernelIdeal.Pool.biasA (V1 m ρ) c (ix2 0 e))
        + Cert.KernelIdeal.Pool.biasB (V1 m ρ) c (ix2 0 e) = _
    rw [rows_entry, weight2_entry, biasA_entry, biasB_entry, shapeCast_a_1a_apply, shapeCast_a_1a_apply]
  rw [hpool]
  refine congrArg (· + Cert.Spec.pooled (m ((c : Thread nD τ).loc main_arg1)) (m ((c : Thread nD τ).loc main_arg3))
    (m ((c : Thread nD τ).loc main_arg4)) (m ((c : Thread nD τ).loc main_arg5)) b e) (Finset.sum_congr rfl fun d _ => ?_)
  rw [htile d]
  rfl

end Cert.KernelIdeal.Result

end
-- ==== Proof.RefAt.lean ====
import proofs.«101561_g82446192214446_feedfinal_392_7_alg».proof.Proof.Gen.ReferenceIdeal.Run
import proofs.«101561_g82446192214446_feedfinal_392_7_alg».proof.Proof.Gen.ReferenceIdeal.Read
import proofs.«101561_g82446192214446_feedfinal_392_7_alg».proof.Proof.Spec
import Idealize.ShloMosaic.Lib.ValueIdx
import Idealize.ShloMosaic.PureOps.Ideal

/-
  The reference program read at one index of its result.

  The reference's last operation is an elementwise sum, so its element at (b, l, e) is the sum of the two
  summands' elements there. The first summand is the projection of row (b, l) of the first input through
  the first weight matrix plus the first bias at e. The second is a broadcast along the row axis of a
  quotient: the host sum, started from the zero word, over the 2048 rows j of (the projection of row (b, j)
  of the second input through the second weight matrix plus the second bias at e), divided by the word of
  2048. Every layout operation on the way (the broadcasts, the contraction's two index maps, the reduction's
  index map) reads its operand at an index that is a fixed function of (b, l, e) and of the bound variable;
  the lemmas below say which, in the ix1 / ix2 / ix3 spelling of the specification. The three float words stay
  words throughout.
-/

noncomputable section

open scoped BigOperators

namespace Cert.RefAt

open Idealize.ShloMosaic Idealize.ShloMosaic.ValueIdx Cert.ReferenceIdeal Cert.ReferenceIdeal.Read

/-- The contraction's left operand is read at row (b, l), column k. -/
theorem lidx_v0_at (b : Fin 16) (l : Fin 2048) (e k : Fin 768) :
    lidx_main_v0 (ix3 b l e) k = ix3 b l k :=
  funext fun a => Fin.ext (by match a with | ⟨0, _⟩ => rfl | ⟨1, _⟩ => rfl | ⟨2, _⟩ => rfl)

/-- The contraction's right operand is read at row e, column k. -/
theorem ridx_v0_at (b : Fin 16) (l : Fin 2048) (e k : Fin 768) :
    ridx_main_v0 (ix3 b l e) k = ix2 e k :=
  funext fun a => Fin.ext (by match a with | ⟨0, _⟩ => rfl | ⟨1, _⟩ => rfl)

/-- The same two facts for the second contraction. -/
theorem lidx_v4_at (b : Fin 16) (l : Fin 2048) (e k : Fin 768) :
    lidx_main_v4 (ix3 b l e) k = ix3 b l k :=
  funext fun a => Fin.ext (by match a with | ⟨0, _⟩ => rfl | ⟨1, _⟩ => rfl | ⟨2, _⟩ => rfl)

theorem ridx_v4_at (b : Fin 16) (l : Fin 2048) (e k : Fin 768) :
    ridx_main_v4 (ix3 b l e) k = ix2 e k :=
  funext fun a => Fin.ext (by match a with | ⟨0, _⟩ => rfl | ⟨1, _⟩ => rfl)

/-- The first bias, broadcast twice, is read at e. -/
theorem idx_v1_v2_at (b : Fin 16) (l : Fin 2048) (e : Fin 768) :
    idx_main_v1 (idx_main_v2 (ix3 b l e)) = ix1 e :=
  funext fun a => Fin.ext (by match a with | ⟨0, _⟩ => rfl)

/-- The second bias, broadcast twice, is read at e. -/
theorem idx_v5_v6_at (b : Fin 16) (l : Fin 2048) (e : Fin 768) :
    idx_main_v5 (idx_main_v6 (ix3 b l e)) = ix1 e :=
  funext fun a => Fin.ext (by match a with | ⟨0, _⟩ => rfl)

/-- The row sum, broadcast back along the row axis, is read at (b, e), and its j-th term at (b, j, e). -/
theorem idx_v8_at (b : Fin 16) (l : Fin 2048) (e : Fin 768) (j : Fin 2048) :
    idx_main_v8 (idx_main_v9 (idx_main_v12 (ix3 b l e))) j = ix3 b j e :=
  funext fun a => Fin.ext (by match a with | ⟨0, _⟩ => rfl | ⟨1, _⟩ => rfl | ⟨2, _⟩ => rfl)

/-- The reference's result at (b, l, e) is the specification's arrangement of it. -/
theorem reference_at (x0 x1 : FVec Ideal Cert.ReferenceIdeal.S16x2048x768 .f32) (x2 : FVec Ideal Cert.ReferenceIdeal.S768x768 .f32)
    (x3 : FVec Ideal Cert.ReferenceIdeal.S768 .f32) (x4 : FVec Ideal Cert.ReferenceIdeal.S768x768 .f32) (x5 : FVec Ideal Cert.ReferenceIdeal.S768 .f32)
    (b : Fin 16) (l : Fin 2048) (e : Fin 768) :
    Cert.ReferenceIdeal.Read.val_main_v13 (F := Ideal) x0 x1 x2 x3 x4 x5 (Idealize.ShloMosaic.ValueIdx.ix3 b l e)
      = Cert.Spec.referenceForm x0 x1 x2 x3 x4 x5 b l e := by
  unfold Cert.Spec.referenceForm
  rw [val_main_v13_apply, val_main_v3_apply, val_main_v12_apply, val_main_v11_apply, val_main_v9_apply,
    val_main_v10_apply, val_main_v8_apply, val_main_v0_apply, val_main_v2_apply, val_main_v1_apply]
  simp only [val_main_v7_apply, val_main_v4_apply, val_main_v6_apply, val_main_v5_apply,
    val_main_cst_apply, val_main_cst_0_apply,
    lidx_v0_at, ridx_v0_at, lidx_v4_at, ridx_v4_at, idx_v1_v2_at, idx_v5_v6_at, idx_v8_at,
    Ideal.addf_def, Ideal.hostDivf_def, Ideal.ofBits_def]

end Cert.RefAt

end
-- ==== Proof.Law.lean ====
/-
  The law between the two arrangements of the result: the mean of a linear map is the linear map of the mean.

  With P_j = Σ_d x2[b,j,d]·W2[e,d] and β = b2[e] real, the reference's second summand is
  (0 + Σ_j (P_j + β)) / 2048 = (Σ_j P_j)/2048 + β, because there are 2048 rows, and
  (Σ_j P_j)/2048 = Σ_d ((Σ_j x2[b,j,d]) · (1/2048)) · W2[e,d] by exchanging the two finite sums and pulling
  the constant out.  The first summand A = Σ_d x1·W1 and the bias b1[e] may be any extended reals: they occur
  once on each side and only move by commutativity and associativity of + on the extended reals.
-/
import proofs.«101561_g82446192214446_feedfinal_392_7_alg».proof.Proof.Spec
import Mathlib.Data.EReal.Basic
import Mathlib.Algebra.BigOperators.Ring.Finset
import Mathlib.Algebra.BigOperators.Group.Finset.Basic
import Mathlib.Data.Fintype.Card
import Mathlib.Tactic.Ring
import Mathlib.Tactic.FieldSimp
import Mathlib.Tactic.NormNum
import Mathlib.Tactic.Abel

noncomputable section

open scoped BigOperators

namespace Cert.Law

open Idealize.ShloMosaic Idealize.ShloMosaic.ValueIdx Cert.Spec

/-! ### The three words -/

/-- The word 0x3A000000 (exponent field 116, zero fraction) denotes 2^23 · 2^(116 - 127 - 23) = 2^-11. -/
theorem invRows_eq : Cert.Spec.invRows = (((1 / 2048 : ℝ)) : EReal) := by
  simp [Ideal.ofBits, Ideal.ieee, -EReal.coe_mul]; norm_num

/-- The word 0x45000000 (exponent field 138, zero fraction) denotes 2^23 · 2^(138 - 127 - 23) = 2^11. -/
theorem rows_eq : Cert.Spec.rows = ((2048 : ℝ) : EReal) := by
  simp [Ideal.ofBits, Ideal.ieee, -EReal.coe_mul]; norm_num

/-- The zero word denotes 0. -/
theorem zeroWord_eq : Cert.Spec.zeroWord = 0 := by
  simp [Ideal.ofBits, Ideal.ieee]

/-! ### Finite sums of reals inside the extended reals -/

/-- The inclusion of ℝ in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The law over abstract finite index sets -/

/-- In ℝ: over a row set J of N ≠ 0 elements, the mean over j of (Σ_d x j d · w d) + β is
    (Σ_d ((Σ_j x j d) · (1/N)) · w d) + β. -/
theorem mean_linear_real {J D : Type*} [Fintype J] [Fintype D] (x : J → D → ℝ) (w : D → ℝ) (β N : ℝ)
    (hN : (Fintype.card J : ℝ) = N) (hN0 : N ≠ 0) :
    (0 + ∑ j, ((∑ d, x j d * w d) + β)) * (1 / N)
      = (∑ d, ((∑ j, x j d) * (1 / N)) * w d) + β := by
  have hsw : (∑ d, ((∑ j, x j d) * (1 / N)) * w d) = (∑ j, ∑ d, x j d * w d) * (1 / N) := by
    rw [Finset.sum_comm (f := fun j d => x j d * w d), Finset.sum_mul]
    refine Finset.sum_congr rfl fun d _ => ?_
    rw [← Finset.sum_mul]
    ring
  rw [hsw, Finset.sum_add_distrib, Finset.sum_const, Finset.card_univ, nsmul_eq_mul, hN, zero_add, add_mul]
  congr 1
  field_simp

/-- The same law with the real data included in the extended reals. -/
theorem mean_linear_ereal {J D : Type*} [Fintype J] [Fintype D] (x : J → D → ℝ) (w : D → ℝ) (β N : ℝ)
    (hN : (Fintype.card J : ℝ) = N) (hN0 : N ≠ 0) :
    ((0 : EReal) + ∑ j, ((∑ d, (x j d : EReal) * (w d : EReal)) + (β : EReal))) * ((1 / N : ℝ) : EReal)
      = (∑ d, ((∑ j, (x j d : EReal)) * ((1 / N : ℝ) : EReal)) * (w d : EReal)) + (β : EReal) := by
  rw [← EReal.coe_zero]
  simp only [← EReal.coe_mul, ← coe_sum, ← EReal.coe_add]
  exact congrArg _ (mean_linear_real x w β N hN hN0)

/-! ### The two arrangements agree -/

theorem kernelForm_eq_referenceForm
    (x1 x2 : Cert.Spec.SX.Idx → EReal) (w1 : Cert.Spec.SW.Idx → EReal) (b1 : Cert.Spec.SB.Idx → EReal)
    (w2 : Cert.Spec.SW.Idx → EReal) (b2 : Cert.Spec.SB.Idx → EReal)
    (hx2 : ∀ i, ∃ r : ℝ, x2 i = (r : EReal)) (hw2 : ∀ i, ∃ r : ℝ, w2 i = (r : EReal)) (hb2 : ∀ i, ∃ r : ℝ, b2 i = (r : EReal))
    (b : Fin 16) (l : Fin 2048) (e : Fin 768) :
    Cert.Spec.kernelForm x1 x2 w1 b1 w2 b2 b l e = Cert.Spec.referenceForm x1 x2 w1 b1 w2 b2 b l e := by
  choose rx hx using hx2
  choose rw2 hw using hw2
  choose rb hb using hb2
  -- the law at the 2048 rows of batch b and the 768 input features of output feature e
  have key := mean_linear_ereal (J := Fin 2048) (D := Fin 768)
    (fun j d => rx (ix3 b j d)) (fun d => rw2 (ix2 e d)) (rb (ix1 e)) 2048 (by simp) (by norm_num)
  unfold Cert.Spec.kernelForm Cert.Spec.referenceForm Cert.Spec.pooled
  rw [invRows_eq, rows_eq, zeroWord_eq, Ideal.div_coe (by norm_num : (2048 : ℝ) ≠ 0)]
  simp only [hx, hw, hb]
  rw [key]
  -- A + ((M + b1) + β) = (A + b1) + (M + β): associativity and commutativity of + on the extended reals
  abel

end Cert.Law

end
-- ==== Proof.Finite.lean ====
/-
  Finiteness of the inputs, read back from the printed precondition. The precondition is a conjunction, over the six
  float inputs, of "every entry x has |x| < +∞", each conjunct printed as an all-reduce by `and` of the one-bit
  comparison of |x| against the broadcast pattern of +∞. At the extended reals |x| is max x (-x), the pattern of +∞
  denotes ⊤, and max x (-x) < ⊤ rules out both ⊥ (whose negation is ⊤) and ⊤: what is left is a real number.
-/
import proofs.«101561_g82446192214446_feedfinal_392_7_alg».proof.Pre_finite_inputs
import proofs.«101561_g82446192214446_feedfinal_392_7_alg».proof.Proof.Gen.Pre_finite_inputs
import Idealize.ShloMosaic.Lib.ReduceAll
import Idealize.ShloMosaic.Lib.ValueIdx
import Idealize.ShloMosaic.PureOps.Ideal

noncomputable section

namespace Cert.Finite

open Idealize.ShloMosaic

/-- The scalar shape has one index. -/
instance subsingleton_scalar_idx : Subsingleton Cert.Pre_finite_inputs.S_.Idx :=
  ⟨fun a b => funext fun d => d.elim0⟩

/-- The one-bit word of a Boolean is 1 exactly when the Boolean is true. -/
theorem ofBool_eq_one_iff_true (b : Bool) : BitVec.ofBool b = 1#1 ↔ b = true := by cases b <;> decide

/-- An extended real whose absolute value `max x (-x)` lies strictly below `⊤` is a real number:
    `⊥` has `-⊥ = ⊤` and `⊤` is itself `⊤`, so neither passes the comparison. -/
theorem real_of_abs_lt_top (x : EReal) (h : max x (-x) < ⊤) : ∃ r : ℝ, x = (r : EReal) := by
  induction x using EReal.rec with
  | bot => simp at h
  | coe r => exact ⟨r, rfl⟩
  | top => simp at h

/-- One array's step: if the all-reduce by `and` of `|a| < +∞` (the comparison against the broadcast
    pattern `0x7F800000`) is 1, then every entry of `a` is a real number. -/
theorem real_of_all_lt_inf {s u : Shape} {axes : List (Fin s.rank)} (a : FVec Ideal s .f32)
    (hb : Cert.Pre_finite_inputs.S_.BroadcastsInDim s (![] : Fin 0 → Fin s.rank))
    (init : u.Idx → BitVec 1) (hr : s.ReducesTo axes Cert.Pre_finite_inputs.S_) (hu : 0 < u.numel)
    (j : Cert.Pre_finite_inputs.S_.Idx)
    (e : Host.reduce IntOp.andi
          (cmpf .olt (Host.absf a)
            (broadcastInDim s ![] hb (constant (F := Ideal) Cert.Pre_finite_inputs.S_ .f32 0x7F800000#32)))
          init hr hu j = 1#1) :
    ∀ i, ∃ r : ℝ, a i = (r : EReal) := by
  intro i
  have hi : Ideal.cmp .olt (max (a i) (-(a i))) (Ideal.ofBits .f32 0x7F800000#32) = 1#1 :=
    Host.reduce_andi_all _ init hr hu j e i
  have htop : Ideal.ofBits .f32 0x7F800000#32 = ⊤ := by simp [Ideal.ofBits, Ideal.ieee]
  rw [htop] at hi
  refine real_of_abs_lt_top (a i) ?_
  simpa [Ideal.cmp, ofBool_eq_one_iff_true] using hi

/-- The printed precondition holding (its one-bit result is 1) makes every entry of each of the six inputs a real
    number: the result is the conjunction of six all-reduces, one per input, each read back by the one-array step. -/
theorem real_of_finite_inputs [Cert.Pre_finite_inputs.Facts]
    (a0 a1 : FVec Ideal Cert.Pre_finite_inputs.S16x2048x768 .f32) (a2 : FVec Ideal Cert.Pre_finite_inputs.S768x768 .f32)
    (a3 : FVec Ideal Cert.Pre_finite_inputs.S768 .f32) (a4 : FVec Ideal Cert.Pre_finite_inputs.S768x768 .f32)
    (a5 : FVec Ideal Cert.Pre_finite_inputs.S768 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  have hc := congrFun h ValueIdx.ix0
  dsimp only [Cert.Pre_finite_inputs.fn, Cert.Pre_finite_inputs.fn_part1] at hc
  simp only [andi, IntOp.andi_eq_one] at hc
  obtain ⟨⟨⟨⟨⟨h0, h1⟩, h2⟩, h3⟩, h4⟩, h5⟩ := hc
  exact ⟨real_of_all_lt_inf a0 _ _ _ _ _ h0, real_of_all_lt_inf a1 _ _ _ _ _ h1,
    real_of_all_lt_inf a2 _ _ _ _ _ h2, real_of_all_lt_inf a3 _ _ _ _ _ h3,
    real_of_all_lt_inf a4 _ _ _ _ _ h4, real_of_all_lt_inf a5 _ _ _ _ _ h5⟩

end Cert.Finite

end
-- ==== Proof.lean ====
/-
  The certificate of a fused "add pooling" kernel against its reference, over the extended reals.

  For x1, x2 : [16, 2048, 768], W1, W2 : [768, 768] and b1, b2 : [768] the reference computes
      out[b, l, e] = (Σ_d x1[b,l,d]·W1[e,d] + b1[e]) + mean_j (Σ_d x2[b,j,d]·W2[e,d] + b2[e]),
  the mean over the 2048 rows j taken as a sum from zero divided by 2048. The kernel uses that the mean of a linear map
  is the linear map of the mean: a first region sums x2[b, ·, d] over the rows, scales by 2^-11 = 1/2048 and projects
  that one row through W2, adding both biases; a second region projects each [512, 768] tile of x1 through W1 (in a
  narrower float format, which is the identity on extended reals) and adds the pooled row of the tile's batch.

  The three frames are the generated ones (the reference's is its run with the result dropped). The ideal pass rewrote
  nothing, so the idealization claim is trivial. For the value claim the kernel's result is named as what the last
  segment boundary holds at the result buffer; it is read at an index as the kernel's arrangement of the arguments
  (Result.lean over Pool.lean and Proj.lean), the reference's run at the same index as the reference's arrangement
  (RefAt.lean), and the two arrangements agree wherever x2, W2 and b2 are real numbers (Law.lean), which the
  precondition gives (Finite.lean): distributing the quotient over the sum and exchanging the two sums is arithmetic
  of real numbers and fails at infinities.
-/
import proofs.«101561_g82446192214446_feedfinal_392_7_alg».proof.Defs
import proofs.«101561_g82446192214446_feedfinal_392_7_alg».proof.Proof.Gen.Kernel
import proofs.«101561_g82446192214446_feedfinal_392_7_alg».proof.Proof.Gen.Kernel.Frame
import proofs.«101561_g82446192214446_feedfinal_392_7_alg».proof.Proof.Gen.KernelIdeal
import proofs.«101561_g82446192214446_feedfinal_392_7_alg».proof.Proof.Gen.KernelIdeal.Frame
import proofs.«101561_g82446192214446_feedfinal_392_7_alg».proof.Proof.Gen.ReferenceIdeal
import proofs.«101561_g82446192214446_feedfinal_392_7_alg».proof.Proof.Gen.ReferenceIdeal.Run
import proofs.«101561_g82446192214446_feedfinal_392_7_alg».proof.Proof.Gen.ReferenceIdeal.Read
import proofs.«101561_g82446192214446_feedfinal_392_7_alg».proof.Proof.Gen.Pre_finite_inputs
import proofs.«101561_g82446192214446_feedfinal_392_7_alg».proof.Proof.KernelRun
import proofs.«101561_g82446192214446_feedfinal_392_7_alg».proof.Proof.Result
import proofs.«101561_g82446192214446_feedfinal_392_7_alg».proof.Proof.RefAt
import proofs.«101561_g82446192214446_feedfinal_392_7_alg».proof.Proof.Law
import proofs.«101561_g82446192214446_feedfinal_392_7_alg».proof.Proof.Finite

noncomputable section

namespace Cert.Proof

open Idealize.ShloMosaic Idealize.ShloMosaic.TcCoe Idealize.SL.Sem Idealize.ShloMosaic.ValueIdx

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same result array: the kernel's, read at (b, l, e), is the kernel's arrangement of the
    arguments, the reference's is the reference's, and under the precondition x2, W2 and b2 are real, where the two
    arrangements are one number. -/
theorem algebraic : Cert.algebraic_KernelIdeal_ReferenceIdeal := by
  intro m ρ m' ρ' hpre hagree
  refine ⟨fun c => Cert.KernelIdeal.Gen.W5 m ρ c (Proc.devRef .tc Cert.KernelIdeal.main_v6),
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  obtain ⟨-, hx2, -, -, hw2, hb2⟩ := Cert.Finite.real_of_finite_inputs _ _ _ _ _ _ (hpre c)
  rw [e0, e1, e2, e3, e4, e5, Cert.ReferenceIdeal.Read.val_main_v13_eq]
  funext i
  obtain ⟨b, l, e, rfl⟩ : ∃ (b : Fin 16) (l : Fin 2048) (e : Fin 768), i = ix3 b l e := ⟨i 0, i 1, i 2, eq_ix3 i⟩
  refine (Cert.RefAt.reference_at _ _ _ _ _ _ b l e).trans ?_
  refine Eq.trans ?_ (Cert.KernelIdeal.Result.result_at m ρ c b l e).symm
  exact (Cert.Law.kernelForm_eq_referenceForm _ _ _ _ _ _ hx2 hw2 hb2 b l e).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
